-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg2 : IVec S1600000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_c_6 : IVec S_ 32 := constantI S_ 32 4294867296#32
  let main_v19 : IVec S1600000 32 := broadcastInDim S1600000 ![] bcast_S_S1600000 main_c_6
  let main_v20 : IVec S1600000 1 := cmpi .sge main_arg2 main_v19
  let main_c_7 : IVec S_ 32 := constantI S_ 32 100000#32
  let main_v21 : IVec S1600000 32 := broadcastInDim S1600000 ![] bcast_S_S1600000 main_c_7
  let main_v22 : IVec S1600000 1 := cmpi .slt main_arg2 main_v21
  let main_v23 : IVec S1600000 1 := andi main_v20 main_v22
  let main_c_8 : IVec S_ 1 := constantI S_ 1 1#1
  let main_v24 : IVec S_ 1 := (fun x v => Host.reduce IntOp.andi x v reducesTo_S1600000_S_d0 h_S_) main_v23 main_c_8
  let main_v25 : IVec S_ 1 := andi main_v18 main_v24
  main_v25

def fn {F : FTy → Type} [FloatOps F] (main_arg0 : FVec F S100000x256 .f32) (main_arg1 : IVec S1600000 32) (main_arg2 : IVec S1600000 32) (main_arg3 : FVec F S1600000 .f32) (main_arg4 : FVec F S256x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x64 .f32 := Host.absf main_arg4
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_v13 main_v16
-- ==== Kernel.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S100000x64 : Shape := ⟨2, ![100000, 64]⟩
abbrev S4096x256 : Shape := ⟨2, ![4096, 256]⟩
abbrev S4096x64 : Shape := ⟨2, ![4096, 64]⟩
abbrev S1600000x1 : Shape := ⟨2, ![1600000, 1]⟩
abbrev S_ : Shape := ⟨0, ![]⟩
abbrev S1 : Shape := ⟨1, ![1]⟩
abbrev S1x1 : Shape := ⟨2, ![1, 1]⟩
abbrev S1600000x64 : Shape := ⟨2, ![1600000, 64]⟩
abbrev S1x64 : Shape := ⟨2, ![1, 64]⟩

abbrev nBuf : Space → Nat
  | .hbm => 43
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x64, .f32⟩
  | .hbm, ⟨5, _⟩ => ⟨S64, .f32⟩
  | .hbm, ⟨6, _⟩ => ⟨S100000x64, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1, .i32⟩
  | .hbm, ⟨17, _⟩ => ⟨S_, .i32⟩
  | .hbm, ⟨18, _⟩ => ⟨S1600000x1, .i32⟩
  | .hbm, ⟨19, _⟩ => ⟨S1600000x1, .i1⟩
  | .hbm, ⟨20, _⟩ => ⟨S1x1, .i32⟩
  | .hbm, ⟨21, _⟩ => ⟨S1600000x1, .i32⟩
  | .hbm, ⟨22, _⟩ => ⟨S1600000x1, .i1⟩
  | .hbm, ⟨23, _⟩ => ⟨S1600000x1, .i1⟩
  | .hbm, ⟨24, _⟩ => ⟨S_, .i1⟩
  | .hbm, ⟨25, _⟩ => ⟨S1600000, .i1⟩
  | .hbm, ⟨26, _⟩ => ⟨S1600000x64, .f32⟩
  | .hbm, ⟨27, _⟩ => ⟨S1600000x64, .i1⟩
  | .hbm, ⟨28, _⟩ => ⟨S_, .f32⟩
  | .hbm, ⟨29, _⟩ => ⟨S1600000x64, .f32⟩
  | .hbm, ⟨30, _⟩ => ⟨S1600000x64, .f32⟩
  | .hbm, ⟨31, _⟩ => ⟨S1600000x64, .f32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S100000x64, .f32⟩
  | .hbm, ⟨42, _⟩ => ⟨S100000x64, .f32⟩
  | .local _ .vmem, ⟨0, _⟩ => ⟨S4096x256, .f32⟩
  | .local _ .vmem, ⟨1, _⟩ => ⟨S4096x256, .f32⟩
  | .local _ .vmem, ⟨2, _⟩ => ⟨S256x64, .f32⟩
  | .local _ .vmem, ⟨3, _⟩ => ⟨S4096x64, .f32⟩
  | .local _ .vmem, ⟨4, _⟩ => ⟨S4096x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_cst : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_call1_cst : Ref sig .tc := ⟨.hbm, 40, rfl⟩
abbrev main_call1_v0 : Ref sig .tc := ⟨.hbm, 41, rfl⟩
abbrev main_v11 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S4096x64_S4096x64_0_0 : ∀ a, (![0, 0] : Fin 2 → Nat) a + S4096x64.size a ≤ S4096x64.size a
  h_S4096x64 : 0 < S4096x64.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S4096x256_S256x64_S4096x64_1_0_0_1_n_n_wf : DotDims.WF S4096x256 S256x64 S4096x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x256.size a < S100000x256.size a
  hwx0_0 : ∀ i : grid0.Coords, EltTy.bits .f32 = 32 ∨ (Rect.unit (s := S100000x256) (fun a => cc0_transform_0 i a * S4096x256.size a) (fun a => (Pipeline.Clip.of (cc0_transform_0 i a) (S4096x256.size a) (S100000x256.size a)).extent (S4096x256.size a)) fun a => Pipeline.Clip.inb (Pipeline.Clip.ok_of (hstart0_0 i a))).WholeWords (EltTy.packing .f32)
  hwxs0_0 : ∀ i : grid0.Coords, EltTy.bits .f32 = 32 ∨ (Rect.unit (s := S4096x256) (fun _ => 0) (fun a => (Pipeline.Clip.of (cc0_transform_0 i a) (S4096x256.size a) (S100000x256.size a)).extent (S4096x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4096x64.size a < S100000x64.size a
  hwx0_2 : ∀ i : grid0.Coords, EltTy.bits .f32 = 32 ∨ (Rect.unit (s := S100000x64) (fun a => cc0_transform_2 i a * S4096x64.size a) (fun a => (Pipeline.Clip.of (cc0_transform_2 i a) (S4096x64.size a) (S100000x64.size a)).extent (S4096x64.size a)) fun a => Pipeline.Clip.inb (Pipeline.Clip.ok_of (hstart0_2 i a))).WholeWords (EltTy.packing .f32)
  hwxs0_2 : ∀ i : grid0.Coords, EltTy.bits .f32 = 32 ∨ (Rect.unit (s := S4096x64) (fun _ => 0) (fun a => (Pipeline.Clip.of (cc0_transform_2 i a) (S4096x64.size a) (S100000x64.size a)).extent (S4096x64.size a)) fun a => (Nat.zero_add _).trans_le (Pipeline.Clip.extent_le (Pipeline.Clip.ok_of (hstart0_2 i a)))).WholeWords (EltTy.packing .f32)

variable [Facts₀]

def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpecClip (Memref.whole main_arg0) S4096x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg4) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v0) S4096x64.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S100000x64 : Shape := ⟨2, ![100000, 64]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩

abbrev nBuf : Space → Nat
  | .hbm => 29
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x64, .f32⟩
  | .hbm, ⟨5, _⟩ => ⟨S64, .f32⟩
  | .hbm, ⟨6, _⟩ => ⟨S100000x64, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | .hbm, ⟨26, _⟩ => ⟨S_, .f32⟩
  | .hbm, ⟨27, _⟩ => ⟨S100000x64, .f32⟩
  | .hbm, ⟨28, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.WordBody.lean ====
/-
  The kernel body of the row-blocked product: on whole staging buffers holding a block `x` of the left matrix
  (4096 rows by 256), the right matrix `w` (256 by 64) and anything in the result's buffer, the body loads `x` and
  `w` whole, rounds both to bf16, multiplies them on the matrix unit into a zero accumulator, loads the result's
  buffer (a value nothing uses) and stores the product whole. So the result's buffer ends holding
  `k0_pay1 x w`, the product of the two rounded operands, and the two inputs' buffers what they held.
  The statement is generic in the float instance: nothing of the product's value is opened here.
  (The word-level program's copy of the same statement: the two printed programs are one text.)
-/
import proofs.«401438_j15375982920434_1_alg».proof.Proof.Gen.Kernel.Launch
import proofs.«401438_j15375982920434_1_alg».proof.Proof.Gen.Kernel.Skeleton
import proofs.«401438_j15375982920434_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole rectangle of each of the three buffers: every access of the body goes through one of them. -/
abbrev rX : Rect S4096x256 := Rect.unit (s := S4096x256) ![0, 0] S4096x256.size inb_S4096x256_S4096x256_0_0
abbrev rW : Rect S256x64 := Rect.unit (s := S256x64) ![0, 0] S256x64.size inb_S256x64_S256x64_0_0
abbrev rO : Rect S4096x64 := Rect.unit (s := S4096x64) ![0, 0] S4096x64.size inb_S4096x64_S4096x64_0_0

/-- What the one store leaves in the result's buffer, as the canonical reading of its single piece. -/
def stored (x : Vec F S4096x256 .f32) (w : Vec F S256x64 .f32) : Vec F S4096x64 .f32 :=
  View.canon [⟨rO, k0_pay1 (View.ld x rX) (View.ld w rW)⟩]

/-- The one store goes through the whole rectangle, so it covers the buffer. -/
theorem stored_cover (p : Vec F S4096x64 .f32) (y : S4096x64.Idx) :
    ∃ pc ∈ ([⟨rO, p⟩] : List (View.Piece (Elt F) S4096x64 .f32)), y ∈ pc.1.set :=
  View.cover_of_tiled [⟨rO, p⟩] S4096x64.size (by rfl) y

/-- The offsets of every access are zero on both axes. -/
theorem offsets_zero : (![0, 0] : Fin 2 → Nat) = fun _ => 0 := funext fun a => by fin_cases a <;> rfl

/-- A whole load reads the buffer and a whole store replaces it: the result's buffer holds the product itself. -/
theorem stored_eq (x : Vec F S4096x256 .f32) (w : Vec F S256x64 .f32) : stored x w = k0_pay1 x w := by
  unfold stored
  rw [View.canon_unit_zero offsets_zero]
  simp only [View.ld_unit_zero (S := S4096x256) offsets_zero, View.ld_unit_zero (S := S256x64) offsets_zero]

/-- The body on whole staging memrefs: the inputs' buffers keep their contents, the result's ends at `stored x w`. -/
theorem sound_kernel (c : Dev nD) (E : Set ℕ) (i : grid0.Coords)
    (arg1 : Memref sig .tc .vmem S4096x256 .f32) (harg1 : arg1.IsWhole) (arg2 : Memref sig .tc .vmem S256x64 .f32) (harg2 : arg2.IsWhole)
    (arg3 : Memref sig .tc .vmem S4096x64 .f32) (harg3 : arg3.IsWhole)
    (x : Vec F S4096x256 .f32) (w : Vec F S256x64 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (stored x w)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_cover _)

/-- The same at the pipeline's staging buffers, whichever slot each window is on, with the product named directly. -/
theorem sound_body (c : Dev nD) (E : Set ℕ) (i : grid0.Coords) (s0 : Fin 2) (s1 : Fin 1) (s2 : Fin 2)
    (X0 : S4096x256.Idx → Elt F .f32) (X1 : S256x64.Idx → Elt F .f32) (X2 : S4096x64.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) Variants.none c none) E
          (cc0__matmul_kernel i (stage0_0 s0) (hstage0_0 s0) (stage0_1 s1) (hstage0_1 s1) (stage0_2 s2) (hstage0_2 s2)) K := by
  iintro ⟨⟨H0, H1, H2⟩, Hk⟩
  iapply (sound_kernel (F := F) c E i _ _ _ _ _ _ X0 X1 K)
  isplitl [H0]; · iexact H0
  isplitl [H1]; · iexact H1
  isplitl [H2]; · iexists X2; iexact H2
  rw [stored_eq]
  iexact Hk

end Cert.Kernel.Body

end
-- ==== Proof.KernelWordBody.lean ====
/-
  The word-level program's one pipeline, seen from its kernel body: the proof data and the body obligation.

  The left matrix is staged in row blocks of 4096 over a grid of 25 points, and 25 * 4096 exceeds its 100000 rows:
  the last block overhangs the array, its fetch is clipped, and the tail of the staging buffer then holds words that
  nothing names. The body multiplies the WHOLE buffer into the result's buffer, so what the result's buffer holds
  after the body depends on those words. The frame claim reads nothing of the result, so the result's window is
  FORGOTTEN: it is handed to the body at some contents and taken back at some contents. What remains to state is that
  the two input buffers come back as they were found: the left block filled out past the array's end by whatever
  was there, and the right matrix exactly (its window is fetched once and must still hold it at every later point).
-/
import proofs.«401438_j15375982920434_1_alg».proof.Proof.WordBody
import proofs.«401438_j15375982920434_1_alg».proof.Proof.Gen.Kernel.Frame
import Idealize.ShloMosaic.Lib.Pipeline.Kit
import Idealize.ShloMosaic.Lib.Tactic

set_option maxRecDepth 16384

noncomputable section

namespace Cert.KernelWord

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The proof data -/

/-- The windows whose contents after the body are not named: the result's (window 2) only. -/
def forgets0 : Fin 3 → Bool := fun w => w.val == 2

theorem forgets0_0 : forgets0 (0 : Fin 3) = false := rfl
theorem forgets0_1 : forgets0 (1 : Fin 3) = false := rfl
theorem forgets0_2 : forgets0 (2 : Fin 3) = true := rfl

/-- The proof data of the pipeline on core `c`: the arrays as the region finds them; after the body at point `t` the
    left matrix's buffer at its block, filled out past the array's end with the zero word (only the part inside the
    array is ever stated of it), the right matrix's buffer at the right matrix, the result's buffer at a filler that
    nothing reads (its window is forgotten); the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => fun _ => Scalar.ofBits .f32 0#32
  Φ _ := Pipeline.ΦA spec0 c
  q _ := fullShare
  owed _ := 0

/-! ## What the body finds -/

/-- The left matrix's window is fetched at every point: its buffer holds the block on the rows inside the array and
    `d`, whatever the buffer held, on the rows past its end. -/
theorem before_0 (c : Dev nD) (t : Fin cfg0.N) (d : S4096x256.Idx → Elt F .f32) :
    (dats m 0 c).before (0 : Fin 3) t d = win0_0.fill (grid0.coords t) d (iblk m c 0 t) := by
  unfold Dat.before; rw [if_pos (fetch0_0 t)]; rfl

/-- The right matrix's window is fetched at the first point only and the body leaves it in place: its buffer holds
    the right matrix at every point. -/
theorem before_1 (c : Dev nD) (t : Fin cfg0.N) (d : S256x64.Idx → Elt F .f32) :
    (dats m 0 c).before (1 : Fin 3) t d = iblk m c 1 t :=
  before0_1_of m (dats m 0 c) rfl (fun _ => rfl) t d

/-! ## The body obligation, the result's window forgotten -/

/-- At every point: the two input buffers as found and the result's buffer at anything carry the body to the two
    input buffers unchanged and the result's buffer at something. Of the left matrix's buffer only its part inside
    the array is stated afterwards, and that part of what it held is the block. -/
theorem body_obligation (c : Dev nD) :
    BodyObligationLoose (dats m 0 c) (defs₀ (F := F)) Variants.none () Set.univ forgets0 := fun t => by
  rw [bigSep_W0, bigSep_W0]
  simp only [forgets0_0, forgets0_1, forgets0_2]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%X2, H2⟩⟩
  rw [before_0 m c t d0, before_1 m c t d1]
  iapply (Cert.Kernel.Body.sound_body (F := F) c Set.univ (grid0.coords t) (cfg0.slots t 0) (cfg0.slots t 1) (cfg0.slots t 2)
    (win0_0.fill (grid0.coords t) d0 (iblk m c 0 t)) (iblk m c 1 t) X2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hx : win0_0.cut (grid0.coords t)
      (win0_0.fill (grid0.coords t) (fun _ => Scalar.ofBits .f32 0#32) (iblk m c 0 t)) = iblk m c 0 t :=
    win0_0.cut_fill _ _ _
  isplitl [H0]
  · iexists d0
    change _ ⊢ owns (c : Thread nD τ) (stage0_0 (cfg0.slots t 0)) fullShare
      (win0_0.fill (grid0.coords t) d0 (win0_0.cut (grid0.coords t)
        (win0_0.fill (grid0.coords t) (fun _ => Scalar.ofBits .f32 0#32) (iblk m c 0 t))))
    rw [hx]
  isplitl [H1]
  · iexact H1
  · iexists _; iexact H2

end Cert.KernelWord

end
-- ==== Proof.KernelWordTail.lean ====
/-
  The host lines that follow the region (the broadcast of the edge values, the row gather, the product, the
  scatter-add by destination row, the bias and the rectifier) compute from the region's result, whose contents the
  frame does not name. So nothing is stated of the buffers they write either: this module lists those buffers and shows
  that the lines write no other. Every one of them is a result buffer of its own line; no argument array is among them.
-/
import proofs.«401438_j15375982920434_1_alg».proof.Proof.Gen.Kernel.Frame

set_option maxRecDepth 16384

noncomputable section

namespace Cert.KernelWord

open Cert.Kernel Cert.Kernel.Gen
open Idealize.ShloMosaic Idealize.ShloMosaic.TcCoe
open Idealize.SL Idealize.SL.Sem

variable {F : FTy → Type} [FloatOps F]

/-- The buffers the lines after the region write, as references: one result buffer per line. -/
def T0 : Finset (Ref sig .tc) := {main_v1, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v2, main_v3, main_v4, main_cst, main_v5, main_v6, main_v7, main_v8, main_v9, main_v10, main_call1_cst, main_call1_v0, main_v11}

/-- No argument array is written by a line after the region. -/
theorem arg_not_mem_T0 : main_arg0 ∉ T0 ∧ main_arg1 ∉ T0 ∧ main_arg2 ∉ T0 ∧ main_arg3 ∉ T0 ∧ main_arg4 ∉ T0 ∧ main_arg5 ∉ T0 := by
  decide

set_option maxHeartbeats 400000 in
/-- Each line after the region writes its own result buffer only, and that buffer is listed. -/
theorem sfx_writes : ∀ ops ∈ ([hostOps1, hostOps1_1, hostOps1_2, hostOps1_3] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl | rfl | rfl | rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide
  · simp only [hostOps1_1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide
  · simp only [hostOps1_2, List.mem_cons, List.mem_nil_iff, or_false] at hop
    rcases hop with rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide
  · simp only [hostOps1_3, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

end Cert.KernelWord

end
-- ==== Proof.KernelWordFrame.lean ====
/-
  The word-level program's frame: it runs to the end, nothing faults, and its six argument arrays end unchanged.

  The run is the library's, around the one region and the host lines after it, over the proof data read with the
  result's window forgotten. Its post says: every INPUT array of the pipeline holds what it held at the region's
  entry, which is what it held at launch (no host line precedes the region); and every buffer that bypasses the
  region and that no later line writes holds what it held at the region's entry. The features and the weights are the
  pipeline's two inputs; the edge rows, the edge columns, the edge values and the bias bypass the region and are
  written by no line. Of the region's result and of what the later lines compute from it nothing is said.
-/
import proofs.«401438_j15375982920434_1_alg».proof.Proof.KernelWordBody
import proofs.«401438_j15375982920434_1_alg».proof.Proof.KernelWordTail
import proofs.«401438_j15375982920434_1_alg».proof.Proof.Gen.Pre_finite_inputs
import proofs.«401438_j15375982920434_1_alg».proof.Defs
import Idealize.ShloMosaic.Lib.Pipeline.FrameSuffix

set_option maxRecDepth 16384

noncomputable section

namespace Cert.KernelWord

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-! ## The run -/

-- the launch theorem's implicit arguments are found by unifying its conclusion with this one, which takes unfolding
-- plain definitions in a metavariable's type
set_option backward.isDefEq.respectTransparency.types false in
/-- At the compiled mesh, for any float instance, from any memory with zero counters: every weakly fair execution of
    @main on the TensorCores terminates, and every final state has both input arrays of the pipeline at their entry
    contents and every bypassing buffer that no later line writes at its entry contents. -/
theorem run_main : θ_run defs (onTc (τ := τ) (main (F := F))) (s₀ m ρ)
    (Pipeline.RDat.FramePostR (cfgs 0) (fun c => (dats m 0 c).toRForget forgets0) T0 (V m)) :=
  Pipeline.RDat.θ_run_frame_around_T cfgs (0 : Fin 1) launch0 defs₀ Variants.none (fun c => (dats m 0 c).toRForget forgets0) T0 m ρ main
    (hbody := fun c => (body_obligation m c).toRForget) (hshare := fun c => ((dats m 0 c).toRForget forgets0).share_full fun _ => rfl)
    (howed := fun _ _ => rfl) (V₀ := V0 m) (opss := [hostOps1, hostOps1_1, hostOps1_2, hostOps1_3]) (hsub := sfx_sub) (hfresh := sfx_fresh) (hkeep := sfx_keeps) (hT := sfx_writes)
    (hmain := hmain m Variants.none) (hA := fun _ _ => rfl) (hΦ := fun _ _ => rfl)

/-- info: 'Cert.KernelWord.run_main' depends on axioms: [propext, Classical.choice, Quot.sound] -/
#guard_msgs in #print axioms run_main

/-! ## The frame -/

/-- The frame claim's post from such a run, for any relational proof data whose arrays are the region-entry contents:
    a staged input by the post's first clause read at an input window, an array no window stages and no later line
    writes by its second clause, each then at its launch contents. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePostR.arr_in h c 0 rfl).trans ((hA c 0).trans (V_main_arg0 m c)),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      (Pipeline.RDat.FramePostR.arr_in h c 1 rfl).trans ((hA c 1).trans (V_main_arg4 m c)),
      ((h c).2 main_arg5 (Finset.mem_sdiff.mpr ⟨Pipeline.mem_restRefs_of main_arg5 (by decide) (by decide), by decide⟩)).trans (V_main_arg5 m c)⟩) h

/-- The frame of the program as printed, at the word-level instance. -/
theorem frame : Cert.frame_Kernel :=
  fun m ρ _ => frame_of m ρ (fun c => (dats m 0 c).toRForget forgets0) (fun _ _ => rfl) (run_main (F := Bits) m ρ)

/-- info: 'Cert.KernelWord.frame' depends on axioms: [propext, Classical.choice, Quot.sound] -/
#guard_msgs in #print axioms frame

end Cert.KernelWord

end
-- ==== Proof.IdealBody.lean ====
/-
  The kernel body of the row-blocked product: on whole staging buffers holding a block `x` of the left matrix
  (4096 rows by 256), the right matrix `w` (256 by 64) and anything in the result's buffer, the body loads `x` and
  `w` whole, rounds both to bf16, multiplies them on the matrix unit into a zero accumulator, loads the result's
  buffer (a value nothing uses) and stores the product whole. So the result's buffer ends holding
  `k0_pay1 x w`, the product of the two rounded operands, and the two inputs' buffers what they held.
  The statement is generic in the float instance: nothing of the product's value is opened here.
-/
import proofs.«401438_j15375982920434_1_alg».proof.Proof.Gen.KernelIdeal.Launch
import proofs.«401438_j15375982920434_1_alg».proof.Proof.Gen.KernelIdeal.Skeleton
import proofs.«401438_j15375982920434_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole rectangle of each of the three buffers: every access of the body goes through one of them. -/
abbrev rX : Rect S4096x256 := Rect.unit (s := S4096x256) ![0, 0] S4096x256.size inb_S4096x256_S4096x256_0_0
abbrev rW : Rect S256x64 := Rect.unit (s := S256x64) ![0, 0] S256x64.size inb_S256x64_S256x64_0_0
abbrev rO : Rect S4096x64 := Rect.unit (s := S4096x64) ![0, 0] S4096x64.size inb_S4096x64_S4096x64_0_0

/-- What the one store leaves in the result's buffer, as the canonical reading of its single piece. -/
def stored (x : Vec F S4096x256 .f32) (w : Vec F S256x64 .f32) : Vec F S4096x64 .f32 :=
  View.canon [⟨rO, k0_pay1 (View.ld x rX) (View.ld w rW)⟩]

/-- The one store goes through the whole rectangle, so it covers the buffer. -/
theorem stored_cover (p : Vec F S4096x64 .f32) (y : S4096x64.Idx) :
    ∃ pc ∈ ([⟨rO, p⟩] : List (View.Piece (Elt F) S4096x64 .f32)), y ∈ pc.1.set :=
  View.cover_of_tiled [⟨rO, p⟩] S4096x64.size (by rfl) y

/-- The offsets of every access are zero on both axes. -/
theorem offsets_zero : (![0, 0] : Fin 2 → Nat) = fun _ => 0 := funext fun a => by fin_cases a <;> rfl

/-- A whole load reads the buffer and a whole store replaces it: the result's buffer holds the product itself. -/
theorem stored_eq (x : Vec F S4096x256 .f32) (w : Vec F S256x64 .f32) : stored x w = k0_pay1 x w := by
  unfold stored
  rw [View.canon_unit_zero offsets_zero]
  simp only [View.ld_unit_zero (S := S4096x256) offsets_zero, View.ld_unit_zero (S := S256x64) offsets_zero]

/-- The body on whole staging memrefs: the inputs' buffers keep their contents, the result's ends at `stored x w`. -/
theorem sound_kernel (c : Dev nD) (E : Set ℕ) (i : grid0.Coords)
    (arg1 : Memref sig .tc .vmem S4096x256 .f32) (harg1 : arg1.IsWhole) (arg2 : Memref sig .tc .vmem S256x64 .f32) (harg2 : arg2.IsWhole)
    (arg3 : Memref sig .tc .vmem S4096x64 .f32) (harg3 : arg3.IsWhole)
    (x : Vec F S4096x256 .f32) (w : Vec F S256x64 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (stored x w)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_cover _)

/-- The same at the pipeline's staging buffers, whichever slot each window is on, with the product named directly. -/
theorem sound_body (c : Dev nD) (E : Set ℕ) (i : grid0.Coords) (s0 : Fin 2) (s1 : Fin 1) (s2 : Fin 2)
    (X0 : S4096x256.Idx → Elt F .f32) (X1 : S256x64.Idx → Elt F .f32) (X2 : S4096x64.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) Variants.none c none) E
          (cc0__matmul_kernel i (stage0_0 s0) (hstage0_0 s0) (stage0_1 s1) (hstage0_1 s1) (stage0_2 s2) (hstage0_2 s2)) K := by
  iintro ⟨⟨H0, H1, H2⟩, Hk⟩
  iapply (sound_kernel (F := F) c E i _ _ _ _ _ _ X0 X1 K)
  isplitl [H0]; · iexact H0
  isplitl [H1]; · iexact H1
  isplitl [H2]; · iexists X2; iexact H2
  rw [stored_eq]
  iexact Hk

end Cert.KernelIdeal.Body

end
-- ==== Proof.IdealPay.lean ====
/-
  The body's product at the ideal instance, element by element. Rounding to bf16 is the identity on extended reals
  and the accumulator is zero, so entry (r, q) of `k0_pay1 x w` is the plain sum over the 256 contracted positions
  of x (r, k) * w (k, q). Two consequences used later: row r of the product reads row r of `x` only, and the sum
  has the same shape as the host's `dot_general` read at an index.
-/
import proofs.«401438_j15375982920434_1_alg».proof.Proof.Gen.KernelIdeal.Skeleton
import Idealize.ShloMosaic.Lib.ValueIdx
import Idealize.ShloMosaic.PureOps.Ideal.Laws

noncomputable section

namespace Cert.KernelIdeal.Pay

open Cert.KernelIdeal Cert.KernelIdeal.Gen
open Idealize.ShloMosaic

/-- The block product's dimension numbers: rows by the contracted axis, the contracted axis by columns. -/
abbrev dotK := dot_S4096x256_S256x64_S4096x64_1_0_0_1_n_n

theorem lhs_axis0 (j : S4096x64.Idx) (q : dotK.contr.Idx) : (dotK.lhsIdx j q 0).val = (j 0).val := by
  unfold DotDims.lhsIdx
  rw [dif_neg (show ¬(0 : Fin S4096x256.rank) ∈ dot_S4096x256_S256x64_S4096x64_1_0_0_1_n_n.lhsBatch by decide), dif_pos (show (0 : Fin S4096x256.rank) ∈ dot_S4096x256_S256x64_S4096x64_1_0_0_1_n_n.lhsNonContracting by decide)]
  rfl
theorem lhs_axis1 (j : S4096x64.Idx) (q : dotK.contr.Idx) : (dotK.lhsIdx j q 1).val = (q ⟨0, by decide⟩).val :=
  dot_S4096x256_S256x64_S4096x64_1_0_0_1_n_n.lhsIdx_val_of_single rfl j q
theorem rhs_axis0 (j : S4096x64.Idx) (q : dotK.contr.Idx) : (dotK.rhsIdx j q 0).val = (q ⟨0, by decide⟩).val :=
  dot_S4096x256_S256x64_S4096x64_1_0_0_1_n_n.rhsIdx_val_of_single rfl j q
theorem rhs_axis1 (j : S4096x64.Idx) (q : dotK.contr.Idx) : (dotK.rhsIdx j q 1).val = (j 1).val := by
  unfold DotDims.rhsIdx
  rw [dif_neg (show ¬(1 : Fin S256x64.rank) ∈ dot_S4096x256_S256x64_S4096x64_1_0_0_1_n_n.rhsBatch by decide), dif_pos (show (1 : Fin S256x64.rank) ∈ dot_S4096x256_S256x64_S4096x64_1_0_0_1_n_n.rhsNonContracting by decide)]
  rfl

/-- Position (row of j, k) of the left block and (k, column of j) of the right matrix. -/
abbrev lpos (j : S4096x64.Idx) (k : Fin 256) : S4096x256.Idx := fun a => match a with
  | ⟨0, _⟩ => ⟨(j 0).val, (j 0).isLt⟩
  | ⟨1, _⟩ => ⟨k.val, k.isLt⟩
abbrev rpos (j : S4096x64.Idx) (k : Fin 256) : S256x64.Idx := fun a => match a with
  | ⟨0, _⟩ => ⟨k.val, k.isLt⟩
  | ⟨1, _⟩ => ⟨(j 1).val, (j 1).isLt⟩

/-- Entry j of the block product is the sum over k of x (row j, k) * w (k, column j). -/
theorem pay_apply (x : Vec Ideal S4096x256 .f32) (w : Vec Ideal S256x64 .f32) (j : S4096x64.Idx) :
    k0_pay1 (F := Ideal) x w j = ∑ k : Fin 256, x (lpos j k) * w (rpos j k) := by
  unfold k0_pay1
  refine (Ideal.matmul_constant_zero_apply dot_S4096x256_S256x64_S4096x64_1_0_0_1_n_n none _ _ j).trans ?_
  rw [← Equiv.sum_comp (ValueIdx.contrEquiv1 dot_S4096x256_S256x64_S4096x64_1_0_0_1_n_n 256 rfl rfl).symm]
  refine Finset.sum_congr rfl fun k _ => ?_
  have hk := ValueIdx.contrEquiv1_symm_val dot_S4096x256_S256x64_S4096x64_1_0_0_1_n_n 256 rfl rfl k
  have el : dot_S4096x256_S256x64_S4096x64_1_0_0_1_n_n.lhsIdx j ((ValueIdx.contrEquiv1 dot_S4096x256_S256x64_S4096x64_1_0_0_1_n_n 256 rfl rfl).symm k) = lpos j k := funext fun a => Fin.ext (by
    match a with
    | ⟨0, _⟩ => exact lhs_axis0 _ _
    | ⟨1, _⟩ => exact (lhs_axis1 _ _).trans hk)
  have er : dot_S4096x256_S256x64_S4096x64_1_0_0_1_n_n.rhsIdx j ((ValueIdx.contrEquiv1 dot_S4096x256_S256x64_S4096x64_1_0_0_1_n_n 256 rfl rfl).symm k) = rpos j k := funext fun a => Fin.ext (by
    match a with
    | ⟨0, _⟩ => exact (rhs_axis0 _ _).trans hk
    | ⟨1, _⟩ => exact rhs_axis1 _ _)
  rw [el, er]
  rfl

/-- Row-locality: two left blocks that agree on the row of j give the same entry j. -/
theorem pay_row_local (x x' : Vec Ideal S4096x256 .f32) (w : Vec Ideal S256x64 .f32) (j : S4096x64.Idx)
    (h : ∀ k : Fin 256, x (lpos j k) = x' (lpos j k)) : k0_pay1 (F := Ideal) x w j = k0_pay1 (F := Ideal) x' w j := by
  rw [pay_apply, pay_apply]
  exact Finset.sum_congr rfl fun k _ => by rw [h k]

end Cert.KernelIdeal.Pay

end
-- ==== Proof.IdealRun.lean ====
/-
  The run of the idealized kernel program, with the product's array named.
  The pipeline visits 25 row blocks of 4096 rows; the last one overhangs the 100000-row arrays, so its fetch fills only
  the first 1696 rows of the left block's staging buffer and the rest holds words nothing names. The proof data
  therefore state each buffer on the rows inside the array: the left block filled out with a fixed word, the right
  matrix exactly (it is fetched once and never cut), and the product of those two. That the body's result agrees
  with this on the rows inside the array, whatever the unnamed rows hold, is row-locality of the product.
-/
import proofs.«401438_j15375982920434_1_alg».proof.Proof.IdealBody
import proofs.«401438_j15375982920434_1_alg».proof.Proof.IdealPay
import proofs.«401438_j15375982920434_1_alg».proof.Proof.Gen.KernelIdeal.Frame
import Idealize.ShloMosaic.Lib.Pipeline.Value
import Idealize.ShloMosaic.Lib.Pipeline.FrameSuffix

set_option maxRecDepth 16384

noncomputable section

namespace Cert.KernelIdeal.Run

open Cert.KernelIdeal Cert.KernelIdeal.Gen Cert.KernelIdeal.Body Cert.KernelIdeal.Pay
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The left matrix's block at point `t`, the part inside the array (4096 rows, 1696 at the last point). -/
def xblk (c : Dev nD) (t : Fin cfg0.N) : (win0_0.xblock (grid0.coords t)).Idx → Elt Ideal .f32 :=
  (win0_0.blk t).view.read (Elt Ideal) (V m c main_arg0)

/-- That block filled out to 4096 rows with a fixed word. -/
def xfull (c : Dev nD) (t : Fin cfg0.N) : S4096x256.Idx → Elt Ideal .f32 :=
  win0_0.fill (grid0.coords t) (fun _ => (FloatOps.ofBits (F := Ideal) .f32 0#32 : Elt Ideal .f32)) (xblk m c t)

/-- The right matrix as its window holds it: the whole array at every point. -/
abbrev wblk (c : Dev nD) (t : Fin cfg0.N) : S256x64.Idx → Elt Ideal .f32 := iblk m c 1 t

def dats (_ : Fin 1) (c : Dev nD) : Dat τ (Elt Ideal) Unit ℕ (UR sig nD τ) ℕ cfg0 c where
  A w := V m c (Pipeline.arrRef spec0 w)
  after w t := match w with
    | ⟨0, _⟩ => xfull m c t
    | ⟨1, _⟩ => iblk m c 1 t
    | ⟨2, _⟩ => k0_pay1 (F := Ideal) (xfull m c t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = xfull m c t := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = k0_pay1 (F := Ideal) (xfull m c t) (wblk m c t) := by dsimp only [dats]

/-! ## What the body finds -/

/-- The left block's buffer was just fetched: the block on the rows inside the array, `d` past them. -/
theorem before_0 (c : Dev nD) (t : Fin cfg0.N) (d) :
    (dats m 0 c).before (0 : Fin 3) t d = win0_0.fill (grid0.coords t) d (xblk m c t) := by
  unfold Dat.before; rw [if_pos (fetch0_0 t)]; rfl

/-- The right matrix's buffer holds the matrix at every point. -/
theorem before_1 (c : Dev nD) (t : Fin cfg0.N) (d) : (dats m 0 c).before (1 : Fin 3) t d = iblk m c 1 t :=
  before0_1_of m (dats m 0 c) (A_eq m c 1) (after_1 m c) t d

/-! ## Row-locality at the pipeline's buffers -/

/-- At every point the two row windows are cut alike along the rows, and the left one is never cut along the
    contracted axis. -/
theorem cut_facts : ∀ t : Fin cfg0.N,
    win0_2.xsize (grid0.coords t) 0 = win0_0.xsize (grid0.coords t) 0 ∧ win0_0.xsize (grid0.coords t) 1 = 256 :=
  (by decide +kernel : ∀ t : Fin grid0.N,
    win0_2.xsize (grid0.coords t) 0 = win0_0.xsize (grid0.coords t) 0 ∧ win0_0.xsize (grid0.coords t) 1 = 256)

/-- On a position the fetch moves, the filled block does not depend on what it was filled out with. -/
theorem fill_of_moved {α : Type} (t : Fin cfg0.N) (d d' : S4096x256.Idx → α)
    (g : (win0_0.xblock (grid0.coords t)).Idx → α) (p : S4096x256.Idx)
    (h : win0_0.moved (grid0.coords t) p = true) :
    win0_0.fill (grid0.coords t) d g p = win0_0.fill (grid0.coords t) d' g p := by
  unfold Window.fill; rw [dif_pos h, dif_pos h]

/-- What the body leaves in the result's buffer when the left block's unnamed rows hold `d`, and what the proof
    data name there. -/
abbrev got (c : Dev nD) (t : Fin cfg0.N) (d : S4096x256.Idx → Elt Ideal .f32) : S4096x64.Idx → Elt Ideal .f32 :=
  k0_pay1 (F := Ideal) (win0_0.fill (grid0.coords t) d (xblk m c t)) (wblk m c t)
abbrev named (c : Dev nD) (t : Fin cfg0.N) : S4096x64.Idx → Elt Ideal .f32 :=
  k0_pay1 (F := Ideal) (xfull m c t) (wblk m c t)

/-- The rows of the product that the write-back moves read only rows of the left block that the fetch moved: on
    them the body's result does not depend on the unnamed rows. -/
theorem cut_pay (c : Dev nD) (t : Fin cfg0.N) (d : S4096x256.Idx → Elt Ideal .f32) :
    win0_2.cut (grid0.coords t) (got m c t d) = win0_2.cut (grid0.coords t) (named m c t) := by
  funext j
  show k0_pay1 (F := Ideal) _ (wblk m c t) (win0_2.xinj (grid0.coords t) j) = k0_pay1 (F := Ideal) _ (wblk m c t) (win0_2.xinj (grid0.coords t) j)
  refine pay_row_local _ _ (wblk m c t) _ fun k => ?_
  unfold xfull
  refine fill_of_moved t _ _ _ _ ((win0_0.moved_iff (grid0.coords t) _).mpr fun a => ?_)
  have hj := (j 0).isLt
  obtain ⟨h0, h1⟩ := cut_facts t
  match a with
  | ⟨0, _⟩ => show (j 0).val < win0_0.xsize (grid0.coords t) 0; rw [← h0]; exact hj
  | ⟨1, _⟩ => show k.val < win0_0.xsize (grid0.coords t) 1; rw [h1]; exact k.isLt

/-! ## The body obligation -/

theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl, after_1 m c t]
  iintro ⟨HΦ, Ho, ⟨%d0, H0⟩, ⟨%d1, H1⟩, ⟨%d2, H2⟩⟩
  rw [before_0 m c t d0, before_1 m c t d1]
  iapply (sound_body (F := Ideal) c Set.univ (grid0.coords t) (cfg0.slots t 0) (cfg0.slots t 1) (cfg0.slots t 2)
    (win0_0.fill (grid0.coords t) d0 (xblk m c t)) (iblk m c 1 t) ((dats m 0 c).before 2 t d2) _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hx : win0_0.cut (grid0.coords t) (xfull m c t) = xblk m c t := win0_0.cut_fill _ _ _
  isplitl [H0]
  · iexists d0
    change _ ⊢ owns (c : Thread nD τ) (stage0_0 (cfg0.slots t 0)) fullShare
      (win0_0.fill (grid0.coords t) d0 (win0_0.cut (grid0.coords t) (xfull m c t)))
    rw [hx]; try iexact H0
  isplitl [H1]
  · iexact H1
  · iexists got m c t d0
    change _ ⊢ owns (c : Thread nD τ) (stage0_2 (cfg0.slots t 2)) fullShare
      (win0_2.fill (grid0.coords t) (got m c t d0) (win0_2.cut (grid0.coords t) (named m c t)))
    rw [win0_2.fill_congr_cut (grid0.coords t) (cut_pay m c t d0)]; try iexact H2

/-! ## The run and the frame -/

set_option backward.isDefEq.respectTransparency.types false in
/-- Every weakly fair execution of @main terminates; the pipeline's arrays end at what the proof data compute, every
    other unscoped buffer at what the host lines after the region compute from those. -/
theorem run_main : θ_run defs (onTc (τ := τ) (main (F := Ideal))) (s₀ m ρ)
    (Pipeline.FramePost cfgs (dats m) 0 (Pipeline.afterTail₀ cfgs (dats m) 0 (V0 m) [hostOps1, hostOps1_1, hostOps1_2, hostOps1_3])) :=
  Pipeline.θ_run_frame_around cfgs (dats m) (0 : Fin 1) launch0 defs₀ Variants.none m ρ main
    (hbody := body_obligation m) (hshare := fun c => (dats m 0 c).share_full fun _ => rfl) (howed := fun _ _ => rfl)
    (V₀ := V0 m) (opss := [hostOps1, hostOps1_1, hostOps1_2, hostOps1_3]) (hsub := sfx_sub) (hfresh := sfx_fresh) (hkeep := sfx_keeps)
    (hmain := hmain m Variants.none) (hA := A_eq m) (hΦ := fun _ _ => rfl)

/-- The idealized kernel program runs to the end and leaves its six argument arrays unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Run

end
-- ==== Proof.IdealValue.lean ====
/-
  What the product's array holds after the run: the host's matrix product of the two argument arrays.
  At point `t` the write-back moves rows t*4096 ... of the result's block; row r of that block is the sum over k of
  the left block's row r against the right matrix, the left block's row r is row t*4096 + r of the left matrix, and
  the host's `dot_general` read at (t*4096 + r, q) is the same sum. The 25 blocks, the last cut at row 100000,
  cover the array: row i lies in block i / 4096.
-/
import proofs.«401438_j15375982920434_1_alg».proof.Proof.IdealRun
import proofs.«401438_j15375982920434_1_alg».proof.Proof.Gen.ReferenceIdeal.Read

set_option maxRecDepth 16384

noncomputable section

namespace Cert.KernelIdeal.Run

open Cert.KernelIdeal Cert.KernelIdeal.Gen Cert.KernelIdeal.Body Cert.KernelIdeal.Pay
open Idealize.ShloMosaic Idealize.ShloMosaic.TcCoe
open Idealize.SL Idealize.SL.Sem
open Idealize.ShloMosaic.Pipeline (Dat Cfg Window)

variable (m : (ℓ : Loc nD τ sig) → Buf (Elt Ideal) ℓ)

/-- The left and right argument arrays, at their literal shapes. -/
abbrev xarr (c : Dev nD) : Vec Ideal S100000x256 .f32 := m ((c : Thread nD τ).loc main_arg0)
abbrev warr (c : Dev nD) : Vec Ideal S256x64 .f32 := m ((c : Thread nD τ).loc main_arg4)

/-- The host's product of the program's left and right argument arrays. -/
def prod (c : Dev nD) : Vec Ideal S100000x64 .f32 :=
  Cert.ReferenceIdeal.Read.val_main_v0 (F := Ideal) (xarr m c) (warr m c)

theorem prod_apply (c : Dev nD) (i : S100000x64.Idx) :
    prod m c i = ∑ k : Fin 256, xarr m c (Cert.ReferenceIdeal.Read.lidx_main_v0 i k)
      * warr m c (Cert.ReferenceIdeal.Read.ridx_main_v0 i k) :=
  Cert.ReferenceIdeal.Read.val_main_v0_apply _ _ i

/-! ## The windows' index maps and cuts, decided once over the grid -/

theorem idx_facts : ∀ t : Fin cfg0.N, win0_0.index t 0 = t.val ∧ win0_0.index t 1 = 0 ∧ win0_1.index t 0 = 0
    ∧ win0_1.index t 1 = 0 ∧ win0_2.index t 0 = t.val ∧ win0_2.index t 1 = 0 :=
  (by decide +kernel : ∀ t : Fin grid0.N, win0_0.index t 0 = t.val ∧ win0_0.index t 1 = 0 ∧ win0_1.index t 0 = 0
    ∧ win0_1.index t 1 = 0 ∧ win0_2.index t 0 = t.val ∧ win0_2.index t 1 = 0)

theorem ext_facts : ∀ t : Fin cfg0.N, win0_2.xsize (grid0.coords t) 1 = 64
    ∧ t.val * 4096 + win0_2.xsize (grid0.coords t) 0 = min 100000 (t.val * 4096 + 4096) :=
  (by decide +kernel : ∀ t : Fin grid0.N, win0_2.xsize (grid0.coords t) 1 = 64
    ∧ t.val * 4096 + win0_2.xsize (grid0.coords t) 0 = min 100000 (t.val * 4096 + 4096))

/-! ## The blocks read at a position -/

/-- A row of the result's block that the write-back moves names, in the left block, a row the fetch moved. -/
theorem moved_lpos (t : Fin cfg0.N) (j : (win0_2.xblock (grid0.coords t)).Idx) (k : Fin 256) :
    win0_0.moved (grid0.coords t) (lpos (win0_2.xinj (grid0.coords t) j) k) = true := by
  refine (win0_0.moved_iff (grid0.coords t) _).mpr fun a => ?_
  have hj := (j 0).isLt
  obtain ⟨h0, h1⟩ := cut_facts t
  match a with
  | ⟨0, _⟩ => show (j 0).val < win0_0.xsize (grid0.coords t) 0; rw [← h0]; exact hj
  | ⟨1, _⟩ => show k.val < win0_0.xsize (grid0.coords t) 1; rw [h1]; exact k.isLt

/-- The filled-out left block at a moved position (r, k) is the left matrix at (t*4096 + r, k). -/
theorem xfull_at (c : Dev nD) (t : Fin cfg0.N) (p : S4096x256.Idx) (hp : win0_0.moved (grid0.coords t) p = true)
    (i : S100000x256.Idx) (h0 : (i 0).val = t.val * 4096 + (p 0).val) (h1 : (i 1).val = (p 1).val) :
    xfull m c t p = xarr m c i := by
  unfold xfull Window.fill
  rw [dif_pos hp]
  unfold xblk
  rw [View.read_apply]
  show m ((c : Thread nD τ).loc main_arg0) _ = m ((c : Thread nD τ).loc main_arg0) i
  refine congrArg _ (funext fun a => Fin.ext ?_)
  obtain ⟨e0, e1, -⟩ := idx_facts t
  match a with
  | ⟨0, _⟩ => show win0_0.index t 0 * 4096 + 1 * (p 0).val = (i 0).val; rw [e0]; omega
  | ⟨1, _⟩ => show win0_0.index t 1 * 256 + 1 * (p 1).val = (i 1).val; rw [e1]; omega

/-- The right matrix's block is the right matrix. -/
theorem wblk_at (c : Dev nD) (t : Fin cfg0.N) (p : S256x64.Idx) (i : S256x64.Idx)
    (h0 : (i 0).val = (p 0).val) (h1 : (i 1).val = (p 1).val) :
    wblk m c t p = warr m c i := by
  show iblk m c 1 t p = _
  unfold iblk
  rw [View.read_apply]
  show m ((c : Thread nD τ).loc main_arg4) _ = m ((c : Thread nD τ).loc main_arg4) i
  refine congrArg _ (funext fun a => Fin.ext ?_)
  obtain ⟨-, -, e0, e1, -⟩ := idx_facts t
  match a with
  | ⟨0, _⟩ => show win0_1.index t 0 * 256 + 1 * (p 0).val = (i 0).val; rw [e0]; omega
  | ⟨1, _⟩ => show win0_1.index t 1 * 64 + 1 * (p 1).val = (i 1).val; rw [e1]; omega

/-! ## What each point writes back, and the cover -/

theorem flushed_eq (c : Dev nD) (t : Fin cfg0.N) :
    (dats m 0 c).flushed 2 t = ((cfg0.win 2).blk t).view.read (Elt Ideal) (prod m c) := by
  have e : (dats m 0 c).flushed 2 t = win0_2.cut (grid0.coords t) (named m c t) := by
    show (cfg0.win 2).cut (cfg0.grid.coords t) ((dats m 0 c).after 2 t) = _
    rw [after_2]
  rw [e]
  funext j
  rw [View.read_apply]
  show k0_pay1 (F := Ideal) (xfull m c t) (wblk m c t) (win0_2.xinj (grid0.coords t) j) = prod m c ((win0_2.blk t).view.emb j)
  rw [pay_apply, prod_apply]
  obtain ⟨-, -, -, -, e0, e1⟩ := idx_facts t
  refine Finset.sum_congr rfl fun k _ => ?_
  have hl : xfull m c t (lpos (win0_2.xinj (grid0.coords t) j) k)
      = xarr m c (Cert.ReferenceIdeal.Read.lidx_main_v0 ((win0_2.blk t).view.emb j) k) :=
    xfull_at m c t (lpos (win0_2.xinj (grid0.coords t) j) k) (moved_lpos t j k)
      (Cert.ReferenceIdeal.Read.lidx_main_v0 ((win0_2.blk t).view.emb j) k)
      (by show win0_2.index t 0 * 4096 + 1 * (j 0).val = t.val * 4096 + (j 0).val
          rw [e0]; omega) rfl
  have hr : wblk m c t (rpos (win0_2.xinj (grid0.coords t) j) k)
      = warr m c (Cert.ReferenceIdeal.Read.ridx_main_v0 ((win0_2.blk t).view.emb j) k) :=
    wblk_at m c t (rpos (win0_2.xinj (grid0.coords t) j) k)
      (Cert.ReferenceIdeal.Read.ridx_main_v0 ((win0_2.blk t).view.emb j) k) rfl
      (by show win0_2.index t 1 * 64 + 1 * (j 1).val = (j 1).val
          rw [e1]; omega)
  rw [hl, hr]

theorem cover (i : S100000x64.Idx) :
    ∃ t : Fin cfg0.N, (cfg0.win 2).flush t = true ∧ i ∈ ((cfg0.win 2).blk t).view.set := by
  have hi : (i 0).val < 100000 := (i 0).isLt
  have hq : (i 1).val < 64 := (i 1).isLt
  have hN : cfg0.N = 25 := N_0
  obtain ⟨t, ht⟩ : ∃ t : Fin cfg0.N, t.val = (i 0).val / 4096 := ⟨⟨(i 0).val / 4096, by rw [hN]; omega⟩, rfl⟩
  refine ⟨t, flush0_2 t, ?_⟩
  show i ∈ ((View.whole main_v0).slice (win0_2.rect t)).set
  rw [View.set_slice_whole, Rect.mem_set_unit]
  intro a
  obtain ⟨-, -, -, -, e0, e1⟩ := idx_facts t
  obtain ⟨x1, x0⟩ := ext_facts t
  match a with
  | ⟨0, _⟩ =>
    show win0_2.index t 0 * 4096 ≤ (i 0).val ∧ (i 0).val < win0_2.index t 0 * 4096 + win0_2.xsize (grid0.coords t) 0
    rw [e0]
    omega
  | ⟨1, _⟩ =>
    show win0_2.index t 1 * 64 ≤ (i 1).val ∧ (i 1).val < win0_2.index t 1 * 64 + win0_2.xsize (grid0.coords t) 1
    rw [e1, x1]
    omega

/-- After the run the product's array holds the host's product of the argument arrays. -/
theorem final (c : Dev nD) : (dats m 0 c).arrAt 2 cfg0.N = prod m c :=
  (dats m 0 c).arrAt_eq_of_cover 2 (prod m c) (fun t _ => flushed_eq m c t) (cover)

end Cert.KernelIdeal.Run

end
-- ==== Proof.LibTypedRef.lean ====
/-
  A typed reference's transport, and its inverse.

  A line of a module-local function writes its result to a buffer through a transport along an equation of buffer
  types (`TRef.toBuf`) and a later line of the function reads it back through the inverse transport (`TRef.ofBuf`).
  Whatever the equation's proof, a value carried there and back is the value: the two transports cancel. So where
  the lines of such a function are read back as values, every pair "written, then read" disappears by these two
  lemmas, with no need to decide that the two buffer types are the same type; a transport is then left only where
  a line of the function reads a buffer written outside it, or writes one read outside it — at the ends of the
  function's stretch of lines, where it is the identity on a value that already has a name.
-/
import Idealize.ShloMosaic.Lib.StableHlo

namespace Idealize.ShloMosaic.StableHlo

/-- A value carried along an equation of types and back is itself. -/
theorem cast_cast_cancel {α β : Sort _} (h : α = β) (h' : β = α) (v : α) : cast h' (cast h v) = v := by subst h; rfl

/-- What a typed reference writes to its buffer and reads back is the value written. -/
theorem TRef.ofBuf_toBuf {sig : RefSig} {Val : EltTy → Type} {T : BufTy} (x : TRef sig T) (v : T.Contents Val) :
    x.ofBuf (x.toBuf v) = v := cast_cast_cancel _ _ v

/-- What is read from a typed reference's buffer and written back is what was there. -/
theorem TRef.toBuf_ofBuf {sig : RefSig} {Val : EltTy → Type} {T : BufTy} (x : TRef sig T) (v : x.ref.ty.Contents Val) :
    x.toBuf (x.ofBuf v) = v := cast_cast_cancel _ _ v

end Idealize.ShloMosaic.StableHlo
-- ==== Proof.LibTypedRefEnds.lean ====
/-
  A typed reference's transport at the ends of a function's stretch of lines.

  Inside a module-local function a value written through a typed reference and read back through it is the value
  (the two transports cancel). At the ends of the function's lines one transport is left: where a line reads a buffer
  that was written outside the function, and where the function's result is read outside it. There the transport is
  along an equation between a buffer's own type and the type the reference carries, and whatever that equation's proof
  is, the transported value is the value it started from, as a heterogeneous equality. So a reading of a buffer
  through a typed reference equals any value that the buffer's contents equal heterogeneously, and likewise a writing.
-/
import Idealize.ShloMosaic.Lib.StableHlo

namespace Idealize.ShloMosaic.StableHlo

variable {sig : RefSig} {Val : EltTy → Type} {T : BufTy}

/-- Contents read through a typed reference are the buffer's contents. -/
theorem TRef.ofBuf_eq_of_heq (x : TRef sig T) (v : x.ref.ty.Contents Val) (w : T.Contents Val) (h : HEq v w) : x.ofBuf v = w :=
  eq_of_heq ((cast_heq _ _).trans h)

/-- Contents written through a typed reference are the value written. -/
theorem TRef.toBuf_eq_of_heq (x : TRef sig T) (v : T.Contents Val) (w : x.ref.ty.Contents Val) (h : HEq v w) : x.toBuf v = w :=
  eq_of_heq ((cast_heq _ _).trans h)

end Idealize.ShloMosaic.StableHlo
-- ==== Proof.TailRead.lean ====
/- The kernel's host lines after its one region, read back as ONE pure term of the region's output array and the
   argument arrays, at the ideal instance (floats extended reals, operations exact).

   After the region the program takes rows of the product array at an index column (a negative index counts from
   the end; a row whose index is out of range is replaced by NaN), scales each taken row by its edge value, adds
   the scaled rows into a zero array at the edge's target row, adds the bias along the columns and clamps below at
   zero. `kTail` is that composition; `after_v11` says the result buffer holds it. -/
import proofs.«401438_j15375982920434_1_alg».proof.Proof.Gen.KernelIdeal.Frame
import Idealize.ShloMosaic.PureOps.Ideal
import proofs.«401438_j15375982920434_1_alg».proof.Proof.LibTypedRef
import proofs.«401438_j15375982920434_1_alg».proof.Proof.LibTypedRefEnds

set_option maxRecDepth 16384

noncomputable section

namespace Cert.Tail

open Idealize.ShloMosaic Idealize.ShloMosaic.TcCoe Idealize.ShloMosaic.Tactic
open Idealize.SL Idealize.SL.Sem
open Idealize.ShloMosaic.StableHlo
open Cert.KernelIdeal Cert.KernelIdeal.Gen

/-- A 32-bit word that, read signed, lies in `[-100000, 100000)`: an index into an axis of extent 100000, counted
    from the start or (negative) from the end. -/
def InRange (x : BitVec 32) : Prop := -100000 ≤ x.toInt ∧ x.toInt < 100000

/-- The index column with negative entries counted from the end: `col + 100000` where `col < 0` (signed), else `col`. -/
def wrapIdx (col : IVec S1600000 32) : IVec S1600000 32 :=
  select (cmpi .slt col (broadcastInDim S1600000 ![] bcast_S_S1600000 (constantI S_ 32 0#32)))
    (addi col (broadcastInDim S1600000 ![] bcast_S_S1600000 (constantI S_ 32 100000#32)))
    col

/-- The wrapped index column as a one-column table: the start indices of the row take. -/
def idxCol (col : IVec S1600000 32) : IVec S1600000x1 32 :=
  broadcastInDim S1600000x1 ![0] bcast_S1600000_S1600000x1_0 (wrapIdx col)

/-- Per edge, whether its start index lies in `[0, 99999]` (signed): the conjunction of the two comparisons, reduced by
    `and` over the table's unit axis. -/
def inMask (w : IVec S1600000x1 32) : IVec S1600000 1 :=
  Host.reduce IntOp.andi
    (andi (cmpi .sge w (broadcastInDim S1600000x1 ![] bcast_S_S1600000x1 (constantI S_ 32 0#32)))
      (cmpi .sle w (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The rows of `xw` taken at the wrapped indices, a row whose index is out of range replaced by NaN. -/
def taken (xw : FVec Ideal S100000x64 .f32) (col : IVec S1600000 32) : FVec Ideal S1600000x64 .f32 :=
  select (broadcastInDim S1600000x64 ![0] bcast_S1600000_S1600000x64_0 (inMask (idxCol col)))
    (Host.gather gather_S100000x64_S1600000x1_S1600000x64_1_0_n_n_0_1_164 xw (idxCol col))
    (broadcastInDim S1600000x64 ![] bcast_S_S1600000x64 (constant (F := Ideal) S_ .f32 0x7FC00000#32))

/-- From the taken rows `G` to the result: scale row `e` by `vals e`, add the scaled rows into a zero array at row
    `row e`, add the bias `b` along the columns, clamp below at zero. -/
def finish (row : IVec S1600000 32) (vals : FVec Ideal S1600000 .f32) (b : FVec Ideal S64 .f32)
    (G : FVec Ideal S1600000x64 .f32) : FVec Ideal S100000x64 .f32 :=
  maximumf
    (addf
      (Host.scatterAdd scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 row)
        (mulf
          (broadcastInDim S1600000x64 ![0, 1] bcast_S1600000x1_S1600000x64_0_1
            (broadcastInDim S1600000x1 ![0] bcast_S1600000_S1600000x1_0 vals))
          G))
      (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

/-- The host lines after the region as one term: of the region's output array `xw`, the edges' target rows `row`,
    source rows `col` and values `vals`, and the bias `b`. -/
def kTail (xw : FVec Ideal S100000x64 .f32) (row col : IVec S1600000 32) (vals : FVec Ideal S1600000 .f32)
    (b : FVec Ideal S64 .f32) : FVec Ideal S100000x64 .f32 :=
  finish row vals b (taken xw col)

/-! ### The typed references at the ends of the called functions' lines

A line of a called function reads a buffer written outside the function, or writes one read outside it, through a
transport along an equation between the buffer's own type and the type the line is stated at. Each such buffer is a
literal reference whose type is that type, so the transport is the identity. -/

theorem ofBuf_arg2 (v : IVec S1600000 32) :
    TRef.ofBuf (Val := Elt Ideal) (.of main_arg2 : TRef sig ⟨S1600000, .i32⟩) v = v := TRef.ofBuf_eq_of_heq _ _ _ HEq.rfl
theorem ofBuf_v0 (v : FVec Ideal S100000x64 .f32) :
    TRef.ofBuf (Val := Elt Ideal) (.of main_v0 : TRef sig ⟨S100000x64, .f32⟩) v = v := TRef.ofBuf_eq_of_heq _ _ _ HEq.rfl
theorem ofBuf_v10 (v : FVec Ideal S100000x64 .f32) :
    TRef.ofBuf (Val := Elt Ideal) (.of main_v10 : TRef sig ⟨S100000x64, .f32⟩) v = v := TRef.ofBuf_eq_of_heq _ _ _ HEq.rfl
theorem toBuf_v2 (v : FVec Ideal S1600000x64 .f32) :
    TRef.toBuf (Val := Elt Ideal) (.of main_v2 : TRef sig ⟨S1600000x64, .f32⟩) v = v := TRef.toBuf_eq_of_heq _ _ _ HEq.rfl
theorem toBuf_v11 (v : FVec Ideal S100000x64 .f32) :
    TRef.toBuf (Val := Elt Ideal) (.of main_v11 : TRef sig ⟨S100000x64, .f32⟩) v = v := TRef.toBuf_eq_of_heq _ _ _ HEq.rfl

set_option maxHeartbeats 2000000 in
/-- The result buffer after the host lines that follow the region holds `kTail` of the region's output array as the
    region left it and of the argument arrays as launched: each of the 36 operations writes only its own result
    buffer, the region's output array is the third window's, and no window's array is an index, value or bias
    argument. -/
theorem after_v11 (m : (ℓ : Loc nD τ sig) → Buf (Elt Ideal) ℓ)
    (dats : (p : Fin 1) → (c : Dev nD) → Pipeline.Dat τ (Elt Ideal) Unit ℕ (UR sig nD τ) ℕ (cfgs p) c) (c : Dev nD) :
    Pipeline.afterTail₀ cfgs dats 0 (V0 m) [hostOps1, hostOps1_1, hostOps1_2, hostOps1_3] c main_v11
      = kTail ((dats 0 c).arrAt 2 cfg0.N) (m ((c : Thread nD τ).loc main_arg1)) (m ((c : Thread nD τ).loc main_arg2))
          (m ((c : Thread nD τ).loc main_arg3)) (m ((c : Thread nD τ).loc main_arg5)) := by
  have e0 : Pipeline.withArrays (cfgs 0).spec c (V0 m c) (fun w => (dats 0 c).arrAt w (cfgs 0).N) (Proc.devRef .tc main_v0)
      = (dats 0 c).arrAt 2 cfg0.N := Pipeline.withArrays_arr spec0 launch0.win.arr_inj c _ _ 2
  have e1 : Pipeline.withArrays (cfgs 0).spec c (V0 m c) (fun w => (dats 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have e2 : Pipeline.withArrays (cfgs 0).spec c (V0 m c) (fun w => (dats 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have e3 : Pipeline.withArrays (cfgs 0).spec c (V0 m c) (fun w => (dats 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have e5 : Pipeline.withArrays (cfgs 0).spec c (V0 m c) (fun w => (dats 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans (V_main_arg5 m c)
  unfold Pipeline.afterTail₀
  show StableHlo.after _ _ (Proc.devRef .tc main_v11) = _
  simp only [hostOps1, hostOps1_1, hostOps1_2, hostOps1_3, List.flatten_cons, List.flatten_nil, List.append_nil,
    List.cons_append, List.nil_append]
  after_results_simp
  rw [e0, e1, e2, e3, e5]
  simp only [TRef.ofBuf_toBuf, ofBuf_arg2, ofBuf_v0, ofBuf_v10, toBuf_v2, toBuf_v11]
  rfl

end Cert.Tail

end
-- ==== Proof.IdealPost.lean ====
/-
  The idealized kernel program's run with its result named: the result buffer ends at the host lines' term of the
  exact product, and the six argument arrays end as launched.
-/
import proofs.«401438_j15375982920434_1_alg».proof.Proof.IdealValue
import proofs.«401438_j15375982920434_1_alg».proof.Proof.TailRead

noncomputable section

namespace Cert.KernelIdeal.Run

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- What the program returns on device `c`: relu (bias + the edge-weighted rows of X · W summed by target row). -/
def result (c : Dev nD) : Buf (Elt Ideal) ((c.tc : Thread nD τ).loc main_v11) :=
  Cert.Tail.kTail (prod m c) (m ((c : Thread nD τ).loc main_arg1)) (m ((c : Thread nD τ).loc main_arg2))
    (m ((c : Thread nD τ).loc main_arg3)) (m ((c : Thread nD τ).loc main_arg5))

theorem run_value : θ_run defs (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v11 (Pipeline.mem_restRefs_of main_v11 (by decide) (by decide))).trans
        ((Cert.Tail.after_v11 m (dats m) c).trans (by unfold result; rw [final m c])),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 1).trans (((dats m 0 c).arrAt_in 1 rfl _).trans ((A_eq m c 1).trans (V_main_arg4 m c))),
      (((h c).2 main_arg5 (Pipeline.mem_restRefs_of main_arg5 (by decide) (by decide))).trans (W_main_arg5 m (dats m) c))⟩)
    (run_main m ρ)

end Cert.KernelIdeal.Run

end
-- ==== Proof.ColRange.lean ====
/- The index column's range, decoded from the precondition.

   The precondition's last conjunct says that every entry of the edges' source-row column, read signed, is at least
   -100000 and below 100000. It is printed as an all-reduce by "and" of the conjunction of two comparisons against
   broadcast constants; read back entry by entry it is the two inequalities. -/
import proofs.«401438_j15375982920434_1_alg».proof.Defs
import proofs.«401438_j15375982920434_1_alg».proof.Proof.Gen.Pre_finite_inputs
import proofs.«401438_j15375982920434_1_alg».proof.Proof.TailRead
import Idealize.ShloMosaic.Lib.ReduceAll
import Idealize.ShloMosaic.Lib.ValueIdx

noncomputable section

namespace Cert.Tail

open Idealize.ShloMosaic Idealize.ShloMosaic.TcCoe
open Idealize.SL Idealize.SL.Sem
open Cert.KernelIdeal

/-- The scalar shape has one index. -/
instance : Subsingleton Cert.Pre_finite_inputs.S_.Idx := ⟨fun a b => funext fun d => d.elim0⟩

/-- A comparison's bit is 1 exactly when the comparison holds. -/
theorem of_ofBool_eq_one {p : Bool} (h : BitVec.ofBool p = 1#1) : p = true := by
  cases p
  · exact absurd h (by decide)
  · rfl

/-- Under the precondition every entry of the source-row column lies in `[-100000, 100000)`, read signed. -/
theorem col_in_range (m : (ℓ : Loc nD τ sig) → Buf (Elt Ideal) ℓ) (h : Cert.Pre_KernelIdeal m) (c : Dev nD) :
    ∀ e, InRange (m ((c : Thread nD τ).loc main_arg2) e) := by
  intro e
  have h0 := congrFun (h c) ValueIdx.ix0
  dsimp only [Cert.Pre_finite_inputs.fn, Cert.Pre_finite_inputs.fn_part1] at h0
  -- the last conjunct: the all-reduce of the two range tests
  obtain ⟨-, h24⟩ := IntOp.andi_eq_one.1 h0
  have hb := Host.reduce_andi_all _ _ _ _ _ h24 e
  obtain ⟨hge, hlt⟩ := IntOp.andi_eq_one.1 hb
  -- each test at entry `e`, against the broadcast constant read at `e`
  have hge' : ((4294867296#32 : BitVec 32).sle (m ((c : Thread nD τ).loc main_arg2) e)) = true := of_ofBool_eq_one hge
  have hlt' : ((m ((c : Thread nD τ).loc main_arg2) e).slt (100000#32 : BitVec 32)) = true := of_ofBool_eq_one hlt
  have kl : (4294867296#32 : BitVec 32).toInt = -100000 := by decide
  have kh : (100000#32 : BitVec 32).toInt = 100000 := by decide
  simp only [BitVec.sle, decide_eq_true_eq, kl] at hge'
  simp only [BitVec.slt, decide_eq_true_eq, kh] at hlt'
  exact ⟨hge', hlt'⟩

end Cert.Tail

end
-- ==== Proof.LibReduceAnd.lean ====
/-
  An all-reduce by "and" over ones is one.

  The library reads a 1 result back (every operand bit that reduces into it was 1). This is the other direction:
  when the initial bit is 1 and every operand bit that reduces into result index j is 1, the result at j is 1.
  A host reduce is a left fold from the initial value over the operand positions that reduce into j, so the
  statement is the fold's.
-/
import Idealize.ShloMosaic.Lib.ReduceAll

namespace Idealize.ShloMosaic

namespace IntOp

/-- A left fold by "and" from 1 over bits that are all 1 is 1. -/
theorem foldl_andi_of_forall {ι : Type} (f : ι → BitVec 1) :
    ∀ (l : List ι) (init : BitVec 1), init = 1#1 → (∀ n ∈ l, f n = 1#1) → l.foldl (fun r n => andi r (f n)) init = 1#1
  | [], _, h, _ => h
  | a :: l, _, h, hl =>
    foldl_andi_of_forall f l _ (andi_eq_one.2 ⟨h, hl a List.mem_cons_self⟩) (fun n hn => hl n (List.mem_cons_of_mem _ hn))

end IntOp

namespace Host

variable {s t u : Shape} {axes : List (Fin s.rank)}

/-- A reduce by "and" from the bit 1 is 1 at j when every operand bit that reduces into j is 1. -/
theorem reduce_andi_of_forall (x : s.Idx → BitVec 1) (init : u.Idx → BitVec 1) (h : s.ReducesTo axes t) (hu : 0 < u.numel)
    (j : t.Idx) (hinit : init (Shape.Idx.first hu) = 1#1) (hx : ∀ i, h.drop i = j → x i = 1#1) :
    Host.reduce IntOp.andi x init h hu j = 1#1 := by
  unfold Host.reduce
  refine IntOp.foldl_andi_of_forall (fun n => x (s.rowMajor.symm n)) _ _ hinit (fun n hn => hx _ ?_)
  exact of_decide_eq_true (List.mem_filter.1 hn).2

end Host

end Idealize.ShloMosaic
-- ==== Proof.TailBridge.lean ====
/- The kernel's host lines after its region, applied to the exact product, are the reference's result.

   Both are: clamp below at zero of (bias + the edge-scaled taken rows added into a zero array at the edges' target
   rows), the rows taken from the product at the same wrapped index column. The kernel in addition replaces a taken row
   by NaN where its wrapped index is out of range; with every index in `[-100000, 100000)` every wrapped index is in
   `[0, 99999]`, so nothing is replaced. -/
import proofs.«401438_j15375982920434_1_alg».proof.Proof.TailRead
import proofs.«401438_j15375982920434_1_alg».proof.Proof.Gen.ReferenceIdeal
import proofs.«401438_j15375982920434_1_alg».proof.Proof.LibReduceAnd
import Idealize.ShloMosaic.Lib.Affine

noncomputable section

namespace Cert.Tail

open Idealize.ShloMosaic

/-! ## The wrapped index of an index in range is in bounds -/

/-- A word in `[-100000, 100000)`, moved up by 100000 when it is negative, lies in `[0, 99999]`: a negative one is at
    least -100000, so the sum is a small non-negative number and the 32-bit addition does not wrap. -/
theorem wrap_toInt (x : BitVec 32) (h : InRange x) :
    0 ≤ (Scalar.select (IntOp.cmpi .slt x 0#32) (IntOp.addi x 100000#32) x).toInt ∧
    (Scalar.select (IntOp.cmpi .slt x 0#32) (IntOp.addi x 100000#32) x).toInt ≤ 99999 := by
  obtain ⟨h1, h2⟩ := h
  have z : (0#32 : BitVec 32).toInt = 0 := by decide
  have k : (100000#32 : BitVec 32).toInt = 100000 := by decide
  unfold Scalar.select IntOp.cmpi IntOp.addi
  by_cases hneg : x.toInt < 0
  · have hs : x.slt 0#32 = true := by simp only [BitVec.slt, z, hneg, decide_true]
    simp only [hs, BitVec.ofBool_true]
    rw [if_pos (by decide), BitVec.toInt_add, k, Int.bmod_def]
    constructor <;> split <;> omega
  · have hs : x.slt 0#32 = false := by simp only [BitVec.slt, z, hneg, decide_false]
    simp only [hs, BitVec.ofBool_false]
    rw [if_neg (by decide)]
    constructor <;> omega

/-- So both bounds tests on the wrapped index come out 1, and so does their conjunction. -/
theorem wrap_inb (x : BitVec 32) (h : InRange x) :
    IntOp.andi (IntOp.cmpi .sge (Scalar.select (IntOp.cmpi .slt x 0#32) (IntOp.addi x 100000#32) x) 0#32)
      (IntOp.cmpi .sle (Scalar.select (IntOp.cmpi .slt x 0#32) (IntOp.addi x 100000#32) x) 99999#32) = 1#1 := by
  obtain ⟨h0, h9⟩ := wrap_toInt x h
  have z : (0#32 : BitVec 32).toInt = 0 := by decide
  have k : (99999#32 : BitVec 32).toInt = 99999 := by decide
  rw [IntOp.andi_eq_one]
  constructor
  · show BitVec.ofBool ((0#32 : BitVec 32).sle _) = 1#1
    rw [BitVec.sle, z, decide_eq_true h0]; rfl
  · show BitVec.ofBool (BitVec.sle _ (99999#32 : BitVec 32)) = 1#1
    rw [BitVec.sle, k, decide_eq_true h9]; rfl

/-! ## With every index in range nothing is replaced -/

section Kernel

open Cert.KernelIdeal Cert.KernelIdeal.Gen

/-- The in-bounds mask of the wrapped index column is all ones: each entry of the one-column table is the wrapped form
    of some entry of the column, the constants it is compared with are 0 and 99999 at every position, and the reduce
    starts from 1. -/
theorem inMask_idxCol (col : IVec S1600000 32) (hcol : ∀ e, InRange (col e)) (j : S1600000.Idx) :
    inMask (idxCol col) j = 1#1 := by
  unfold inMask
  refine Host.reduce_andi_of_forall _ _ _ _ j rfl (fun i _ => ?_)
  obtain ⟨e, he⟩ : ∃ e, idxCol col i
      = Scalar.select (IntOp.cmpi .slt (col e) 0#32) (IntOp.addi (col e) 100000#32) (col e) := ⟨_, rfl⟩
  show IntOp.andi (IntOp.cmpi .sge (idxCol col i) 0#32) (IntOp.cmpi .sle (idxCol col i) 99999#32) = 1#1
  rw [he]
  exact wrap_inb _ (hcol e)

/-- So the taken rows are the plain take: the select against NaN keeps its first branch everywhere. -/
theorem taken_eq (xw : FVec Ideal S100000x64 .f32) (col : IVec S1600000 32) (hcol : ∀ e, InRange (col e)) :
    taken xw col = Host.gather gather_S100000x64_S1600000x1_S1600000x64_1_0_n_n_0_1_164 xw (idxCol col) := by
  funext i
  unfold taken
  have hm : broadcastInDim S1600000x64 ![0] bcast_S1600000_S1600000x64_0 (inMask (idxCol col)) i = 1#1 :=
    inMask_idxCol col hcol _
  show Scalar.select (broadcastInDim S1600000x64 ![0] bcast_S1600000_S1600000x64_0 (inMask (idxCol col)) i) _ _ = _
  rw [hm]
  show (if (1#1 : BitVec 1) = 1 then _ else _) = _
  rw [if_pos (by decide)]

end Kernel

/-! ## The bridge -/

open Cert.ReferenceIdeal Cert.ReferenceIdeal.Gen

/-- With every source-row index in range, the kernel's host lines applied to the product `X · W` give the
    reference's result. -/
theorem kTail_eq_ref (X : FVec Ideal S100000x256 .f32) (W : FVec Ideal S256x64 .f32) (row col : IVec S1600000 32)
    (vals : FVec Ideal S1600000 .f32) (b : FVec Ideal S64 .f32) (hcol : ∀ e, InRange (col e)) :
    kTail (Host.dotGeneral dot_S100000x256_S256x64_S100000x64_1_0_0_1_n_n none X W) row col vals b
      = maximumf (addf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 row) (mulf (broadcastInDim S1600000x64 ![0, 1] bcast_S1600000x1_S1600000x64_0_1 (broadcastInDim S1600000x1 ![0] bcast_S1600000_S1600000x1_0 vals)) (Host.gather gather_S100000x64_S1600000x1_S1600000x64_1_0_n_n_0_1_164 (Host.dotGeneral dot_S100000x256_S256x64_S100000x64_1_0_0_1_n_n none X W) (broadcastInDim S1600000x1 ![0] bcast_S1600000_S1600000x1_0 (select (cmpi .slt col (broadcastInDim S1600000 ![] bcast_S_S1600000 (constantI S_ 32 0#32))) (addi col (broadcastInDim S1600000 ![] bcast_S_S1600000 (constantI S_ 32 100000#32))) col))))) (broadcastInDim S100000x64 ![0, 1] bcast_S1x64_S100000x64_0_1 (broadcastInDim S1x64 ![1] bcast_S64_S1x64_1 b))) (broadcastInDim S100000x64 ![] bcast_S_S100000x64 (constant S_ .f32 0x00000000#32)) := by
  unfold kTail
  rw [taken_eq _ _ hcol]
  rfl

end Cert.Tail

end
-- ==== Proof.lean ====
/-
  A graph-convolution layer: relu (b + Σ over edges e with target row r of vals e · (X · W) [col e]).
  The kernel computes X · W on the matrix unit in 25 row blocks of 4096 (the last block overhangs the 100000 rows and
  is cut), from operands rounded to bf16, and gathers, scales, scatter-adds, adds the bias and clamps on the host;
  the reference does all of it on the host with one matrix product. On extended reals rounding is the identity and
  both products are the same sum over the 256 contracted positions, so the two programs differ only in the
  kernel's extra guard: a gathered row whose index is out of range is replaced by NaN. Under the precondition every
  source-row index lies in [-100000, 100000), the range in which the reference's own indexing is defined, so after
  counting a negative index from the end every index lies in [0, 99999] and the guard never fires.

  The five claims: the word-level kernel's frame (its result window forgotten: the matrix unit's term is
  uninterpreted at bit patterns, and nothing of it is needed for a frame), the idealized kernel's frame and value
  (row-locality of the product carries the cut block), the reference's run, and the equality of the two results.
-/
import proofs.«401438_j15375982920434_1_alg».proof.Defs
import proofs.«401438_j15375982920434_1_alg».proof.Proof.KernelWordFrame
import proofs.«401438_j15375982920434_1_alg».proof.Proof.IdealPost
import proofs.«401438_j15375982920434_1_alg».proof.Proof.ColRange
import proofs.«401438_j15375982920434_1_alg».proof.Proof.TailBridge
import proofs.«401438_j15375982920434_1_alg».proof.Proof.Gen.ReferenceIdeal.Run
import proofs.«401438_j15375982920434_1_alg».proof.Proof.Gen.ReferenceIdeal.Read
import proofs.«401438_j15375982920434_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_kernel : Cert.frame_Kernel := Cert.KernelWord.frame

theorem frame_kernelIdeal : Cert.frame_KernelIdeal := fun m ρ _ => Cert.KernelIdeal.Run.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the same array: the kernel's host lines applied to the exact product X · W, which under
    the index range is the reference's term. -/
theorem algebraic : Cert.algebraic_KernelIdeal_ReferenceIdeal := by
  intro m ρ m' ρ' hpre hagree
  refine ⟨fun c => Cert.KernelIdeal.Run.result m c, Cert.KernelIdeal.Run.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.Tail.kTail_eq_ref _ _ _ _ _ _ (Cert.Tail.col_in_range m hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
